-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x7 : Shape := ⟨2, ![4096, 7]⟩
abbrev S7 : Shape := ⟨1, ![7]⟩
abbrev S7x7 : Shape := ⟨2, ![7, 7]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x7 : S_.BroadcastsInDim S4096x7 (![] : Fin 0 → Fin S4096x7.rank)
  reducesTo_S4096x7_S_d0_1 : S4096x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_

variable [Facts]

def fn_part1 {F : FTy → Type} [FloatOps F] (main_arg4 : FVec F S7x7 .f32) (main_arg5 : FVec F S7 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7x7 .f32 := Host.absf main_arg4
  let main_cst_6 : FVec F S_ .f32 := constant S_ .f32 0x7F800000#32
  let main_v20 : FVec F S7x7 .f32 := broadcastInDim S7x7 ![] bcast_S_S7x7 main_cst_6
  let main_v21 : IVec S7x7 1 := cmpf .olt main_v19 main_v20
  let main_c_7 : IVec S_ 1 := constantI S_ 1 1#1
  let main_v22 : IVec S_ 1 := (fun x v => Host.reduce IntOp.andi x v reducesTo_S7x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S16384x4096 .f32) (main_arg1 : FVec F S16384x4096 .f32) (main_arg2 : FVec F S4096x7 .f32) (main_arg3 : FVec F S7 .f32) (main_arg4 : FVec F S7x7 .f32) (main_arg5 : FVec F S7 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x7 .f32 := Host.absf main_arg2
  let main_cst_2 : FVec F S_ .f32 := constant S_ .f32 0x7F800000#32
  let main_v10 : FVec F S4096x7 .f32 := broadcastInDim S4096x7 ![] bcast_S_S4096x7 main_cst_2
  let main_v11 : IVec S4096x7 1 := cmpf .olt main_v9 main_v10
  let main_c_3 : IVec S_ 1 := constantI S_ 1 1#1
  let main_v12 : IVec S_ 1 := (fun x v => Host.reduce IntOp.andi x v reducesTo_S4096x7_S_d0_1 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg4 main_arg5 main_v13 main_v16
-- ==== Kernel.lean ====
abbrev S16384x4096 : Shape := ⟨2, ![16384, 4096]⟩
abbrev S4096x7 : Shape := ⟨2, ![4096, 7]⟩
abbrev S7 : Shape := ⟨1, ![7]⟩
abbrev S7x7 : Shape := ⟨2, ![7, 7]⟩
abbrev S512x4096 : Shape := ⟨2, ![512, 4096]⟩
abbrev S512x7 : Shape := ⟨2, ![512, 7]⟩
abbrev S1x7 : Shape := ⟨2, ![1, 7]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x7, .f32⟩
  | .hbm, ⟨3, _⟩ => ⟨S7, .f32⟩
  | .hbm, ⟨4, _⟩ => ⟨S7x7, .f32⟩
  | .hbm, ⟨5, _⟩ => ⟨S7, .f32⟩
  | .hbm, ⟨6, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x7, .f32⟩
  | .local _ .vmem, ⟨5, _⟩ => ⟨S7, .f32⟩
  | .local _ .vmem, ⟨6, _⟩ => ⟨S7x7, .f32⟩
  | .local _ .vmem, ⟨7, _⟩ => ⟨S7, .f32⟩
  | .local _ .vmem, ⟨8, _⟩ => ⟨S512x4096, .f32⟩
  | .local _ .vmem, ⟨9, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x7_S4096x7_0_0 : ∀ a, (![0, 0] : Fin 2 → Nat) a + S4096x7.size a ≤ S4096x7.size a
  h_S4096x7 : 0 < S4096x7.numel
  inb_S7_S7_0 : ∀ a, (![0] : Fin 1 → Nat) a + S7.size a ≤ S7.size a
  h_S7 : 0 < S7.numel
  inb_S7x7_S7x7_0_0 : ∀ a, (![0, 0] : Fin 2 → Nat) a + S7x7.size a ≤ S7x7.size a
  h_S7x7 : 0 < S7x7.numel
  shapeCasts_S7_S1x7 : S7.ShapeCasts S1x7
  broadcasts_S1x7_S512x7 : S1x7.Broadcasts S512x7
  reduces_S512x7_S512 : S512x7.Reduces [1] S512
  shapeCasts_S512_S512x1 : S512.ShapeCasts S512x1
  broadcasts_S512x1_S512x4096 : S512x1.Broadcasts S512x4096
  dot_S512x4096_S4096x7_S512x7_1_0_0_1_n_n_wf : DotDims.WF S512x4096 S4096x7 S512x7 [1] [0] [0] [1] [] []
  dot_S512x7_S7x7_S512x7_1_0_0_1_n_n_wf : DotDims.WF S512x7 S7x7 S512x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x7.size a ≤ S4096x7.size a
  hwx0_2 : ∀ i : grid0.Coords, EltTy.bits .f32 = 32 ∨ (Rect.block (s := S4096x7) S4096x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7.size a ≤ S7.size a
  hwx0_3 : ∀ i : grid0.Coords, EltTy.bits .f32 = 32 ∨ (Rect.block (s := S7) S7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x7.size a ≤ S7x7.size a
  hwx0_4 : ∀ i : grid0.Coords, EltTy.bits .f32 = 32 ∨ (Rect.block (s := S7x7) S7x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7.size a ≤ S7.size a
  hwx0_5 : ∀ i : grid0.Coords, EltTy.bits .f32 = 32 ∨ (Rect.block (s := S7) S7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S16384x4096.size a
  hwx0_6 : ∀ i : grid0.Coords, EltTy.bits .f32 = 32 ∨ (Rect.block (s := S16384x4096) S512x4096.size (cc0_transform_6 i) (hinb0_6 i)).WholeWords (EltTy.packing .f32)

variable [Facts₀]

def dot_S512x4096_S4096x7_S512x7_1_0_0_1_n_n : DotDims S512x4096 S4096x7 S512x7 where
  lhsContracting := [1]
  rhsContracting := [0]
  lhsNonContracting := [0]
  rhsNonContracting := [1]
  lhsBatch := []
  rhsBatch := []
  wf := dot_S512x4096_S4096x7_S512x7_1_0_0_1_n_n_wf
def dot_S512x7_S7x7_S512x7_1_0_0_1_n_n : DotDims S512x7 S7x7 S512x7 where
  lhsContracting := [1]
  rhsContracting := [0]
  lhsNonContracting := [0]
  rhsNonContracting := [1]
  lhsBatch := []
  rhsBatch := []
  wf := dot_S512x7_S7x7_S512x7_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x7 : Shape := ⟨2, ![4096, 7]⟩
abbrev S7 : Shape := ⟨1, ![7]⟩
abbrev S7x7 : Shape := ⟨2, ![7, 7]⟩
abbrev S16384x7 : Shape := ⟨2, ![16384, 7]⟩
abbrev S1x7 : Shape := ⟨2, ![1, 7]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 62
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x7, .f32⟩
  | .hbm, ⟨3, _⟩ => ⟨S7, .f32⟩
  | .hbm, ⟨4, _⟩ => ⟨S7x7, .f32⟩
  | .hbm, ⟨5, _⟩ => ⟨S7, .f32⟩
  | .hbm, ⟨6, _⟩ => ⟨S16384x7, .f32⟩
  | .hbm, ⟨7, _⟩ => ⟨S1x7, .f32⟩
  | .hbm, ⟨8, _⟩ => ⟨S16384x7, .f32⟩
  | .hbm, ⟨9, _⟩ => ⟨S16384x7, .f32⟩
  | .hbm, ⟨10, _⟩ => ⟨S_, .f32⟩
  | .hbm, ⟨11, _⟩ => ⟨S16384x7, .f32⟩
  | .hbm, ⟨12, _⟩ => ⟨S16384x7, .f32⟩
  | .hbm, ⟨13, _⟩ => ⟨S16384x7, .f32⟩
  | .hbm, ⟨14, _⟩ => ⟨S1x7, .f32⟩
  | .hbm, ⟨15, _⟩ => ⟨S16384x7, .f32⟩
  | .hbm, ⟨16, _⟩ => ⟨S16384x7, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x7, .f32⟩
  | .hbm, ⟨23, _⟩ => ⟨S1x7, .f32⟩
  | .hbm, ⟨24, _⟩ => ⟨S16384x7, .f32⟩
  | .hbm, ⟨25, _⟩ => ⟨S16384x7, .f32⟩
  | .hbm, ⟨26, _⟩ => ⟨S_, .f32⟩
  | .hbm, ⟨27, _⟩ => ⟨S16384x7, .f32⟩
  | .hbm, ⟨28, _⟩ => ⟨S16384x7, .f32⟩
  | .hbm, ⟨29, _⟩ => ⟨S16384x7, .f32⟩
  | .hbm, ⟨30, _⟩ => ⟨S1x7, .f32⟩
  | .hbm, ⟨31, _⟩ => ⟨S16384x7, .f32⟩
  | .hbm, ⟨32, _⟩ => ⟨S16384x7, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x1, .f32⟩
  | .hbm, ⟨40, _⟩ => ⟨S16384x2, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x2, .f32⟩
  | .hbm, ⟨48, _⟩ => ⟨S16384x2, .f32⟩
  | .hbm, ⟨49, _⟩ => ⟨S16384x2, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x2, .f32⟩
  | .hbm, ⟨54, _⟩ => ⟨S16384x2, .f32⟩
  | .hbm, ⟨55, _⟩ => ⟨S16384x1, .f32⟩
  | .hbm, ⟨56, _⟩ => ⟨S16384x4096, .f32⟩
  | .hbm, ⟨57, _⟩ => ⟨S16384x4096, .f32⟩
  | .hbm, ⟨58, _⟩ => ⟨S16384x1, .f32⟩
  | .hbm, ⟨59, _⟩ => ⟨S16384x4096, .f32⟩
  | .hbm, ⟨60, _⟩ => ⟨S16384x4096, .f32⟩
  | .hbm, ⟨61, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S16384x7_0_1 : S1x7.BroadcastsInDim S16384x7 (![0, 1] : Fin 2 → Fin S16384x7.rank)
  bcast_S_S16384x7 : S_.BroadcastsInDim S16384x7 (![] : Fin 0 → Fin S16384x7.rank)
  reducesTo_S16384x7_S16384_d1 : S16384x7.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x2_S16384_d1 : S16384x2.ReducesTo [1] S16384
  bcast_S16384x1_S16384x2_0_1 : S16384x1.BroadcastsInDim S16384x2 (![0, 1] : Fin 2 → Fin S16384x2.rank)
  slices_S16384x2_S16384x1_0_0 : S16384x2.Slices ![0, 0] S16384x1
  bcast_S16384x1_S16384x4096_0_1 : S16384x1.BroadcastsInDim S16384x4096 (![0, 1] : Fin 2 → Fin S16384x4096.rank)
  slices_S16384x2_S16384x1_0_1 : S16384x2.Slices ![0, 1] S16384x1
  dot_S16384x4096_S4096x7_S16384x7_1_0_0_1_n_n_wf : DotDims.WF S16384x4096 S4096x7 S16384x7 [1] [0] [0] [1] [] []
  dot_S16384x7_S7x7_S16384x7_1_0_0_1_n_n_wf : DotDims.WF S16384x7 S7x7 S16384x7 [1] [0] [0] [1] [] []

variable [Facts₀]

def dot_S16384x4096_S4096x7_S16384x7_1_0_0_1_n_n : DotDims S16384x4096 S4096x7 S16384x7 where
  lhsContracting := [1]
  rhsContracting := [0]
  lhsNonContracting := [0]
  rhsNonContracting := [1]
  lhsBatch := []
  rhsBatch := []
  wf := dot_S16384x4096_S4096x7_S16384x7_1_0_0_1_n_n_wf
def dot_S16384x7_S7x7_S16384x7_1_0_0_1_n_n : DotDims S16384x7 S7x7 S16384x7 where
  lhsContracting := [1]
  rhsContracting := [0]
  lhsNonContracting := [0]
  rhsNonContracting := [1]
  lhsBatch := []
  rhsBatch := []
  wf := dot_S16384x7_S7x7_S16384x7_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.GateSpec.lean ====
/-
  The gate of a two-expert mixture, as mathematics over the extended reals.

  A feature row x (4096 numbers) is sent through a small perceptron: seven hidden units
  h_k = max (Σ_d x_d · W1[d,k] + b1[k], 0), seven outputs o_j = Σ_k h_k · W2[k,j] + b2[j], and the row's logit is the
  mean (Σ_j o_j) / 7. Two feature arrays f1 and f2 give each row r two logits l1 and l2; the two-way softmax, taken
  after subtracting their maximum m = max l1 l2, weighs the experts:
      a1 = e^(l1 - m) / (e^(l1 - m) + e^(l2 - m)),   a2 = e^(l2 - m) / (e^(l1 - m) + e^(l2 - m)),
  and the result at (r, c) is a1 · f1[r,c] + a2 · f2[r,c].

  The constants 0 and 7 are kept as the binary words the programs spell them with; both programs use the same words,
  so they are never evaluated.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Gate

/-- Hidden unit k of the perceptron on the feature row x: the rectified affine form of the row. -/
def hidden (x : Fin 4096 → EReal) (W1 : (⟨2, ![4096, 7]⟩ : Shape).Idx → EReal) (b1 : (⟨1, ![7]⟩ : Shape).Idx → EReal)
    (k : Fin 7) : EReal :=
  max ((∑ d : Fin 4096, x d * W1 (ix2 d k)) + b1 (ix1 k)) (Ideal.ofBits .f32 0x00000000#32)

/-- Output j of the perceptron on the feature row x. -/
def output (x : Fin 4096 → EReal) (W1 : (⟨2, ![4096, 7]⟩ : Shape).Idx → EReal) (b1 : (⟨1, ![7]⟩ : Shape).Idx → EReal)
    (W2 : (⟨2, ![7, 7]⟩ : Shape).Idx → EReal) (b2 : (⟨1, ![7]⟩ : Shape).Idx → EReal) (j : Fin 7) : EReal :=
  (∑ k : Fin 7, hidden x W1 b1 k * W2 (ix2 k j)) + b2 (ix1 j)

/-- The row's logit: the mean of the seven outputs. -/
def logit (x : Fin 4096 → EReal) (W1 : (⟨2, ![4096, 7]⟩ : Shape).Idx → EReal) (b1 : (⟨1, ![7]⟩ : Shape).Idx → EReal)
    (W2 : (⟨2, ![7, 7]⟩ : Shape).Idx → EReal) (b2 : (⟨1, ![7]⟩ : Shape).Idx → EReal) : EReal :=
  Ideal.div (∑ j : Fin 7, output x W1 b1 W2 b2 j) (Ideal.ofBits .f32 0x40E00000#32)

/-- The softmax weight of the expert whose logit is l, among the two logits l1 and l2 (shifted by their maximum). -/
def weight (l l1 l2 : EReal) : EReal :=
  Ideal.div (Ideal.exp (l - max l1 l2)) (Ideal.exp (l1 - max l1 l2) + Ideal.exp (l2 - max l1 l2))

/-- The two experts' values x1 and x2 mixed by the softmax weights of their logits. -/
def mix (l1 l2 x1 x2 : EReal) : EReal :=
  weight l1 l1 l2 * x1 + weight l2 l1 l2 * x2

/-- Row r of a [R, 4096] array. -/
abbrev row {R : Nat} (f : (⟨2, ![R, 4096]⟩ : Shape).Idx → EReal) (r : Fin R) : Fin 4096 → EReal := fun d => f (ix2 r d)

/-- The gated mixture of two [R, 4096] feature arrays, entry by entry: each row's two logits weigh the two arrays'
    entries of that row. -/
def gated {R : Nat} (f1 f2 : (⟨2, ![R, 4096]⟩ : Shape).Idx → EReal) (W1 : (⟨2, ![4096, 7]⟩ : Shape).Idx → EReal)
    (b1 : (⟨1, ![7]⟩ : Shape).Idx → EReal) (W2 : (⟨2, ![7, 7]⟩ : Shape).Idx → EReal) (b2 : (⟨1, ![7]⟩ : Shape).Idx → EReal) :
    (⟨2, ![R, 4096]⟩ : Shape).Idx → EReal := fun i =>
  mix (logit (row f1 (i 0)) W1 b1 W2 b2) (logit (row f2 (i 0)) W1 b1 W2 b2) (f1 i) (f2 i)

/-- The maximum with -∞ in front changes nothing. -/
theorem max_negInf (y : EReal) : max (Ideal.ofBits .f32 0xFF800000#32) y = y := by
  simp [Ideal.ofBits, Ideal.ieee]

end Cert.Gate

end
-- ==== Proof.GateKernel.lean ====
/-
  The kernel's body, read at the ideal values, is the gated mixture on one block of rows.

  One grid point holds 512 rows of each feature array. The body sends both blocks through the perceptron, with matrix
  products into a zero accumulator and a lane sum over the seven outputs, takes the two-way softmax of the two logit
  columns after subtracting their maximum, spreads each weight column across the 4096 lanes and mixes the two blocks.
  Here each of those vector terms is read at one entry: a matrix product is the sum over its contraction coordinate, the
  lane sum a sum over seven coordinates, a spread column its row's entry; what remains is the specification's formula.
-/
import proofs.«103838_j57062935494767_1_alg».proof.Proof.KernelIdealValue
import proofs.«103838_j57062935494767_1_alg».proof.Proof.LibPlainMatmul
import proofs.«103838_j57062935494767_1_alg».proof.Proof.GateSpec
import Idealize.ShloMosaic.Lib.ValueLayout
import Idealize.ShloMosaic.PureOps.Ideal.Laws

noncomputable section

open scoped BigOperators
open Idealize.ShloMosaic Idealize.ShloMosaic.ValueIdx

namespace Cert.KernelIdeal.GateValue

open Cert.KernelIdeal Cert.KernelIdeal.Gen Cert.Gate

/-- The first layer on a block at entry (p, k): row p's hidden unit k. -/
theorem hidden_entry (X : FVec Ideal S512x4096 .f32) (W1 : FVec Ideal S4096x7 .f32) (b1 : FVec Ideal S7 .f32) (p : Fin 512) (k : Fin 7) :
    maximumf (addf (matmul dot_S512x4096_S4096x7_S512x7_1_0_0_1_n_n none X W1 (constant S512x7 .f32 0x00000000#32))
        (broadcastTo S512x7 (shapeCast S1x7 b1 shapeCasts_S7_S1x7) broadcasts_S1x7_S512x7))
      (broadcast S512x7 (Scalar.ofBits .f32 0x00000000#32)) (ix2 p k)
    = hidden (row X p) W1 b1 k := by
  have hm : (matmul dot_S512x4096_S4096x7_S512x7_1_0_0_1_n_n none X W1 (constant S512x7 .f32 0x00000000#32)) (ix2 p k)
      = ∑ d : Fin 4096, X (ix2 p d) * W1 (ix2 d k) :=
    Cert.Lib.PlainMatmul.apply dot_S512x4096_S4096x7_S512x7_1_0_0_1_n_n rfl rfl rfl rfl rfl rfl none X W1 p k
  have hb : (broadcastTo S512x7 (shapeCast S1x7 b1 shapeCasts_S7_S1x7) broadcasts_S1x7_S512x7) (ix2 p k) = b1 (ix1 k) :=
    (broadcastTo_1b_ab_apply _ _ p k).trans (shapeCast_a_1a_apply b1 _ 0 k)
  simp only [maximumf_apply, addf_apply, broadcast_apply]
  rw [hm, hb]
  rfl

/-- The second layer at entry (p, j), from the matrix H of hidden units: Σ_k H[p,k] · W2[k,j] + b2[j]. -/
theorem output_entry (H : FVec Ideal S512x7 .f32) (W2 : FVec Ideal S7x7 .f32) (b2 : FVec Ideal S7 .f32) (p : Fin 512) (j : Fin 7) :
    addf (matmul dot_S512x7_S7x7_S512x7_1_0_0_1_n_n none H W2 (constant S512x7 .f32 0x00000000#32))
      (broadcastTo S512x7 (shapeCast S1x7 b2 shapeCasts_S7_S1x7) broadcasts_S1x7_S512x7) (ix2 p j)
    = (∑ k : Fin 7, H (ix2 p k) * W2 (ix2 k j)) + b2 (ix1 j) := by
  have hm : (matmul dot_S512x7_S7x7_S512x7_1_0_0_1_n_n none H W2 (constant S512x7 .f32 0x00000000#32)) (ix2 p j)
      = ∑ k : Fin 7, H (ix2 p k) * W2 (ix2 k j) :=
    Cert.Lib.PlainMatmul.apply dot_S512x7_S7x7_S512x7_1_0_0_1_n_n rfl rfl rfl rfl rfl rfl none H W2 p j
  have hb : (broadcastTo S512x7 (shapeCast S1x7 b2 shapeCasts_S7_S1x7) broadcasts_S1x7_S512x7) (ix2 p j) = b2 (ix1 j) :=
    (broadcastTo_1b_ab_apply _ _ p j).trans (shapeCast_a_1a_apply b2 _ 0 j)
  rw [addf_apply, hm, hb]

/-- The lane sum of a [512, 7] matrix at row p: the sum of the row's seven entries. -/
theorem laneSum_entry (O : FVec Ideal S512x7 .f32) (hφ : FKind.Formats .f32) (hacc : (0x00000000#32 : BitVec 32) = 0x00000000#32) (p : Fin 512) :
    multiReduction .add [1] S512 O 0x00000000#32 reduces_S512x7_S512 hφ hacc (ix1 p) = ∑ j : Fin 7, O (ix2 p j) := by
  refine (Ideal.multiReduction_add_single O 0x00000000#32 reduces_S512x7_S512 hφ hacc (ix1 p)).trans ?_
  exact Finset.sum_congr rfl fun j _ => congrArg O (funext fun a => Fin.ext (by match a with | ⟨0, _⟩ => rfl | ⟨1, _⟩ => rfl))

/-- The body's logit column at row p is the logit of the block's row p. -/
theorem logit_row (X : FVec Ideal S512x4096 .f32) (W1 : FVec Ideal S4096x7 .f32) (b1 : FVec Ideal S7 .f32)
    (W2 : FVec Ideal S7x7 .f32) (b2 : FVec Ideal S7 .f32) (p : Fin 512) :
    k0_pay2 (F := Ideal) X W1 b1 W2 b2 (ix1 p) = logit (row X p) W1 b1 W2 b2 := by
  unfold k0_pay2 logit
  dsimp only
  rw [divf_apply]
  refine congrArg₂ Ideal.div ?_ rfl
  refine (laneSum_entry _ _ _ p).trans (Finset.sum_congr rfl fun j _ => ?_)
  refine (output_entry _ W2 b2 p j).trans ?_
  unfold output
  refine congrArg (· + b2 (ix1 j)) (Finset.sum_congr rfl fun k _ => ?_)
  exact congrArg (· * W2 (ix2 k j)) (hidden_entry X W1 b1 p k)

/-- The second logit column is the same term of the second block. -/
theorem logit_row' (X : FVec Ideal S512x4096 .f32) (W1 : FVec Ideal S4096x7 .f32) (b1 : FVec Ideal S7 .f32)
    (W2 : FVec Ideal S7x7 .f32) (b2 : FVec Ideal S7 .f32) (p : Fin 512) :
    k0_pay3 (F := Ideal) X W1 b1 W2 b2 (ix1 p) = logit (row X p) W1 b1 W2 b2 :=
  logit_row X W1 b1 W2 b2 p

/-- What the body leaves in the output block, entry by entry, is the mixture of the two logit columns' entries of the
    row with the two blocks' entries. -/
theorem block_mix (X1 : FVec Ideal S512x4096 .f32) (W1 : FVec Ideal S4096x7 .f32) (b1 : FVec Ideal S7 .f32)
    (W2 : FVec Ideal S7x7 .f32) (b2 : FVec Ideal S7 .f32) (X2 : FVec Ideal S512x4096 .f32) (y : S512x4096.Idx) :
    ValueP.E6 (F := Ideal) X1 W1 b1 W2 b2 X2 y
      = mix (k0_pay2 (F := Ideal) X1 W1 b1 W2 b2 (ValueP.ix6_0 y)) (k0_pay3 (F := Ideal) X2 W1 b1 W2 b2 (ValueP.ix6_0 y))
          (X1 (ValueP.ix6_9 y)) (X2 (ValueP.ix6_9 y)) := rfl

/-- The output block at entry (p, q) is the gated mixture of the two input blocks there. -/
theorem block_entry (X1 : FVec Ideal S512x4096 .f32) (W1 : FVec Ideal S4096x7 .f32) (b1 : FVec Ideal S7 .f32)
    (W2 : FVec Ideal S7x7 .f32) (b2 : FVec Ideal S7 .f32) (X2 : FVec Ideal S512x4096 .f32) (p : Fin 512) (q : Fin 4096) :
    ValueP.E6 (F := Ideal) X1 W1 b1 W2 b2 X2 (ix2 p q) = gated X1 X2 W1 b1 W2 b2 (ix2 p q) := by
  have hr : ValueP.ix6_0 (ix2 p q) = ix1 p := funext fun a => by match a with | ⟨0, _⟩ => rfl
  have he : ValueP.ix6_9 (ix2 p q) = ix2 p q := funext fun a => by match a with | ⟨0, _⟩ => rfl | ⟨1, _⟩ => rfl
  rw [block_mix, hr, he, logit_row, logit_row']
  rfl

end Cert.KernelIdeal.GateValue

end
-- ==== Proof.GateBlocks.lean ====
/-
  From the blocks to the whole array.

  Grid point t stages rows 512·t … 512·t + 511 of the two feature arrays (all 4096 columns) and the whole of the four
  small weight arrays, and writes back rows 512·t … 512·t + 511 of the result. The gated mixture works row by row, so
  what a point writes back is exactly that block of rows of the gated mixture of the WHOLE arrays; the 32 blocks of 512
  rows cover all 16384 rows (row r lies in block r / 512), so after the run the result array is the gated mixture.
-/
import proofs.«103838_j57062935494767_1_alg».proof.Proof.KernelIdealValue
import proofs.«103838_j57062935494767_1_alg».proof.Proof.GateKernel
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.GateRun

open Cert.KernelIdeal Cert.KernelIdeal.Gen Cert.Gate

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- What the body leaves in the output block, as a function of the six staged blocks, is their gated mixture. -/
theorem out_eq (X1 X2 : FVec Ideal S512x4096 .f32) (W1 : FVec Ideal S4096x7 .f32) (b1 : FVec Ideal S7 .f32)
    (W2 : FVec Ideal S7x7 .f32) (b2 : FVec Ideal S7 .f32) :
    out0_6 (F := Ideal) X1 X2 W1 b1 W2 b2 = gated X1 X2 W1 b1 W2 b2 := by
  funext y
  unfold out0_6
  simp only [View.ld_unit_zero (S := S512x4096) origin2, View.ld_unit_zero (S := S4096x7) origin2,
    View.ld_unit_zero (S := S7) origin1, View.ld_unit_zero (S := S7x7) origin2]
  rw [ValueP.canon6_eq]
  obtain ⟨p, q, rfl⟩ : ∃ (p : Fin 512) (q : Fin 4096), y = ix2 p q := ⟨y 0, y 1, eq_ix2 y⟩
  exact GateValue.block_entry X1 W1 b1 W2 b2 X2 p q

/-- The six staged blocks at point t, at their literal types. -/
abbrev feat1 (c : Dev nD) (t : Fin cfg0.N) : FVec Ideal S512x4096 .f32 := iblk m c 0 t
abbrev feat2 (c : Dev nD) (t : Fin cfg0.N) : FVec Ideal S512x4096 .f32 := iblk m c 1 t
abbrev wgt1 (c : Dev nD) (t : Fin cfg0.N) : FVec Ideal S4096x7 .f32 := iblk m c 2 t
abbrev bias1 (c : Dev nD) (t : Fin cfg0.N) : FVec Ideal S7 .f32 := iblk m c 3 t
abbrev wgt2 (c : Dev nD) (t : Fin cfg0.N) : FVec Ideal S7x7 .f32 := iblk m c 4 t
abbrev bias2 (c : Dev nD) (t : Fin cfg0.N) : FVec Ideal S7 .f32 := iblk m c 5 t

/-- The result: the gated mixture of the argument arrays as launched. -/
abbrev result (c : Dev nD) : S16384x4096.Idx → EReal :=
  gated (R := 16384) (V m c main_arg0) (V m c main_arg1) (V m c main_arg2) (V m c main_arg3) (V m c main_arg4) (V m c main_arg5)

/-- The printed index maps over the grid: the two feature windows and the output window sit at block row t, column 0;
    the four weight windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The gated mixture works row by row: where two pairs of feature arrays agree on one row each (row p of the one pair
    is row r of the other) and the weights are the same, their gated mixtures agree on that row. -/
theorem gated_rows {R R' : Nat} (f1 f2 : (⟨2, ![R, 4096]⟩ : Shape).Idx → EReal) (g1 g2 : (⟨2, ![R', 4096]⟩ : Shape).Idx → EReal)
    (W1 W1' : (⟨2, ![4096, 7]⟩ : Shape).Idx → EReal) (b1 b1' : (⟨1, ![7]⟩ : Shape).Idx → EReal)
    (W2 W2' : (⟨2, ![7, 7]⟩ : Shape).Idx → EReal) (b2 b2' : (⟨1, ![7]⟩ : Shape).Idx → EReal)
    (p : Fin R') (r : Fin R) (q : Fin 4096)
    (h1 : ∀ d, g1 (ix2 p d) = f1 (ix2 r d)) (h2 : ∀ d, g2 (ix2 p d) = f2 (ix2 r d))
    (hW1 : W1' = W1) (hb1 : b1' = b1) (hW2 : W2' = W2) (hb2 : b2' = b2) :
    gated g1 g2 W1' b1' W2' b2' (ix2 p q) = gated f1 f2 W1 b1 W2 b2 (ix2 r q) := by
  subst hW1 hb1 hW2 hb2
  have e1 : row g1 p = row f1 r := funext h1
  have e2 : row g2 p = row f2 r := funext h2
  show mix (logit (row g1 p) W1' b1' W2' b2') (logit (row g2 p) W1' b1' W2' b2') (g1 (ix2 p q)) (g2 (ix2 p q))
    = mix (logit (row f1 r) W1' b1' W2' b2') (logit (row f2 r) W1' b1' W2' b2') (f1 (ix2 r q)) (f2 (ix2 r q))
  rw [e1, e2, h1 q, h2 q]

/-- WHAT POINT t WRITES BACK is block t of the gated mixture of the whole argument arrays. -/
theorem flushed_eq (c : Dev nD) (t : Fin cfg0.N) :
    (dats m 0 c).flushed 6 t = ((cfg0.win 6).blk t).view.read (Elt Ideal) (result m c) := by
  rw [ValueP.flushed6]
  obtain ⟨e00, e01, e10, e11, e20, e21, e30, e40, e41, e50, e60, e61⟩ := idx_facts t
  have ht : t.val < 32 := t.isLt
  funext j
  have hj0 : (j 0).val < 512 := (j 0).isLt
  have hj1 : (j 1).val < 4096 := (j 1).isLt
  show out0_6 (F := Ideal) (feat1 m c t) (feat2 m c t) (wgt1 m c t) (bias1 m c t) (wgt2 m c t) (bias2 m c t) j
      = result m c (((cfg0.win 6).blk t).view.emb j)
  rw [out_eq]
  have ej : (j : S512x4096.Idx) = ix2 (⟨(j 0).val, hj0⟩ : Fin 512) (⟨(j 1).val, hj1⟩ : Fin 4096) :=
    funext fun a => Fin.ext (by match a with | ⟨0, _⟩ => rfl | ⟨1, _⟩ => rfl)
  have ee : (((cfg0.win 6).blk t).view.emb j : S16384x4096.Idx)
      = ix2 (⟨t.val * 512 + (j 0).val, by omega⟩ : Fin 16384) (⟨(j 1).val, hj1⟩ : Fin 4096) :=
    funext fun a => Fin.ext (by
      match a with
      | ⟨0, _⟩ => show win0_6.index t (0 : Fin 2) * 512 + 1 * (j 0).val = t.val * 512 + (j 0).val; rw [e60]; omega
      | ⟨1, _⟩ => show win0_6.index t (1 : Fin 2) * 4096 + 1 * (j 1).val = (j 1).val; rw [e61]; omega)
  rw [ee]
  refine (congrArg (gated (feat1 m c t) (feat2 m c t) (wgt1 m c t) (bias1 m c t) (wgt2 m c t) (bias2 m c t)) ej).trans ?_
  refine gated_rows _ _ _ _ _ _ _ _ _ _ _ _ _ _ _ (fun d => ?_) (fun d => ?_) ?_ ?_ ?_ ?_
  · show V m c main_arg0 (((cfg0.win 0).blk t).view.emb (ix2 (⟨(j 0).val, hj0⟩ : Fin 512) d)) = V m c main_arg0 _
    refine congrArg (V m c main_arg0) (funext fun a => Fin.ext ?_)
    match a with
    | ⟨0, _⟩ => show win0_0.index t (0 : Fin 2) * 512 + 1 * (j 0).val = t.val * 512 + (j 0).val; rw [e00]; omega
    | ⟨1, _⟩ => show win0_0.index t (1 : Fin 2) * 4096 + 1 * d.val = d.val; rw [e01]; omega
  · show V m c main_arg1 (((cfg0.win 1).blk t).view.emb (ix2 (⟨(j 0).val, hj0⟩ : Fin 512) d)) = V m c main_arg1 _
    refine congrArg (V m c main_arg1) (funext fun a => Fin.ext ?_)
    match a with
    | ⟨0, _⟩ => show win0_1.index t (0 : Fin 2) * 512 + 1 * (j 0).val = t.val * 512 + (j 0).val; rw [e10]; omega
    | ⟨1, _⟩ => show win0_1.index t (1 : Fin 2) * 4096 + 1 * d.val = d.val; rw [e11]; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 4096 + 1 * (y 0).val = (y 0).val; rw [e20]; omega
    | ⟨1, _⟩ => show win0_2.index t (1 : Fin 2) * 7 + 1 * (y 1).val = (y 1).val; rw [e21]; omega
  · funext y
    show V m c main_arg3 (((cfg0.win 3).blk t).view.emb y) = V m c main_arg3 y
    refine congrArg (V m c main_arg3) (funext fun a => Fin.ext ?_)
    match a with
    | ⟨0, _⟩ => show win0_3.index t (0 : Fin 1) * 7 + 1 * (y 0).val = (y 0).val; rw [e30]; omega
  · funext y
    show V m c main_arg4 (((cfg0.win 4).blk t).view.emb y) = V m c main_arg4 y
    refine congrArg (V m c main_arg4) (funext fun a => Fin.ext ?_)
    match a with
    | ⟨0, _⟩ => show win0_4.index t (0 : Fin 2) * 7 + 1 * (y 0).val = (y 0).val; rw [e40]; omega
    | ⟨1, _⟩ => show win0_4.index t (1 : Fin 2) * 7 + 1 * (y 1).val = (y 1).val; rw [e41]; omega
  · funext y
    show V m c main_arg5 (((cfg0.win 5).blk t).view.emb y) = V m c main_arg5 y
    refine congrArg (V m c main_arg5) (funext fun a => Fin.ext ?_)
    match a with
    | ⟨0, _⟩ => show win0_5.index t (0 : Fin 1) * 7 + 1 * (y 0).val = (y 0).val; rw [e50]; omega

/-- An index of the result array is in point t's block iff each coordinate is in the block's range on its axis. -/
theorem mem_block (t : Fin cfg0.N) (i : S16384x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_v0).slice (win0_6.rect t)).set ↔ _
  rw [View.set_slice_whole, Rect.mem_set_unit]
  exact Iff.rfl

/-- Every entry of the result array lies in the block of the point that holds its row: row r in block r / 512. -/
theorem covered (i : S16384x4096.Idx) : ∃ t : Fin cfg0.N, (cfg0.win 6).flush t = true ∧ i ∈ ((cfg0.win 6).blk t).view.set := by
  have hi0 : (i 0).val < 16384 := (i 0).isLt
  have hi1 : (i 1).val < 4096 := (i 1).isLt
  have hN : cfg0.N = 32 := N_0
  refine ⟨⟨(i 0).val / 512, by rw [hN]; omega⟩, flush0_6 _, ?_⟩
  obtain ⟨-, -, -, -, -, -, -, -, -, -, e60, e61⟩ := idx_facts ⟨(i 0).val / 512, by rw [hN]; omega⟩
  rw [mem_block]
  intro a
  match a with
  | ⟨0, _⟩ =>
    show win0_6.index _ (0 : Fin 2) * 512 ≤ (i 0).val ∧ (i 0).val < win0_6.index _ (0 : Fin 2) * 512 + 512
    rw [e60]; show (i 0).val / 512 * 512 ≤ (i 0).val ∧ (i 0).val < (i 0).val / 512 * 512 + 512; omega
  | ⟨1, _⟩ =>
    show win0_6.index _ (1 : Fin 2) * 4096 ≤ (i 1).val ∧ (i 1).val < win0_6.index _ (1 : Fin 2) * 4096 + 4096
    rw [e61]; omega

/-- THE RESULT ARRAY after the run is the gated mixture of the argument arrays. -/
theorem final (c : Dev nD) : (dats m 0 c).arrAt 6 cfg0.N = result m c :=
  (dats m 0 c).arrAt_eq_of_cover 6 (result m c) (fun t _ => flushed_eq m c t) covered

/-- The kernel's run, read: the result array at the gated mixture of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (ValueP.run_blocks m ρ)

end Cert.KernelIdeal.GateRun

end
-- ==== Proof.GateReference.lean ====
/-
  The reference program, read one operation at a time at the ideal values, is the gated mixture of the whole arrays.

  Its perceptron is two host matrix products with a row of biases added, a rectifier and a sum over the seven outputs
  divided by seven; its softmax stacks the two logit columns into a [16384, 2] array, takes that array's row maximum
  (a fold of max from -∞), subtracts it, exponentiates, sums the two columns (from zero) and divides. Read at a row r the
  stacked array's two entries are the two logits, the fold over two entries from -∞ is their maximum, and the sum from
  zero of two exponentials is their sum: the specification's weights.
-/
import proofs.«103838_j57062935494767_1_alg».proof.Proof.Gen.ReferenceIdeal.Read
import proofs.«103838_j57062935494767_1_alg».proof.Proof.GateSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.GateValue

open Cert.ReferenceIdeal Cert.ReferenceIdeal.Gen Cert.ReferenceIdeal.Read Cert.Gate

variable (x0 x1 : (⟨S16384x4096, .f32⟩ : BufTy).Contents (Elt Ideal)) (x2 : (⟨S4096x7, .f32⟩ : BufTy).Contents (Elt Ideal))
  (x3 : (⟨S7, .f32⟩ : BufTy).Contents (Elt Ideal)) (x4 : (⟨S7x7, .f32⟩ : BufTy).Contents (Elt Ideal))
  (x5 : (⟨S7, .f32⟩ : BufTy).Contents (Elt Ideal))

/-- The first expert's rectified first layer at (r, k): row r's hidden unit k. -/
theorem hidden1 (r : Fin 16384) (k : Fin 7) : val_main_v4 (F := Ideal) x0 x2 x3 (ix2 r k) = hidden (row x0 r) x2 x3 k := by
  have hl : ∀ d : Fin 4096, lidx_main_v0 (ix2 r k) d = ix2 r d := fun d =>
    funext fun a => Fin.ext (by match a with | ⟨0, _⟩ => rfl | ⟨1, _⟩ => rfl)
  have hr : ∀ d : Fin 4096, ridx_main_v0 (ix2 r k) d = ix2 d k := fun d =>
    funext fun a => Fin.ext (by match a with | ⟨0, _⟩ => rfl | ⟨1, _⟩ => rfl)
  have hb : idx_main_v1 (idx_main_v2 (ix2 r k)) = ix1 k :=
    funext fun a => Fin.ext (by match a with | ⟨0, _⟩ => rfl)
  rw [val_main_v4_apply, val_main_v3_apply, val_main_v0_apply, val_main_v2_apply, val_main_v1_apply,
    val_main_call0_v0_apply, val_main_call0_cst_apply, hb]
  simp only [hl, hr]
  rfl

/-- The first expert's second layer at (r, j): row r's output j. -/
theorem output1 (r : Fin 16384) (j : Fin 7) :
    val_main_v8 (F := Ideal) x0 x2 x3 x4 x5 (ix2 r j) = output (row x0 r) x2 x3 x4 x5 j := by
  have hl : ∀ k : Fin 7, lidx_main_v5 (ix2 r j) k = ix2 r k := fun k =>
    funext fun a => Fin.ext (by match a with | ⟨0, _⟩ => rfl | ⟨1, _⟩ => rfl)
  have hr : ∀ k : Fin 7, ridx_main_v5 (ix2 r j) k = ix2 k j := fun k =>
    funext fun a => Fin.ext (by match a with | ⟨0, _⟩ => rfl | ⟨1, _⟩ => rfl)
  have hb : idx_main_v6 (idx_main_v7 (ix2 r j)) = ix1 j :=
    funext fun a => Fin.ext (by match a with | ⟨0, _⟩ => rfl)
  rw [val_main_v8_apply, val_main_v5_apply, val_main_v7_apply, val_main_v6_apply, hb]
  simp only [hl, hr, hidden1]
  rfl

/-- The first expert's logit at row r: the sum from zero of the seven outputs, over seven. -/
theorem logit1 (r : Fin 16384) : val_main_v11 (F := Ideal) x0 x2 x3 x4 x5 (ix1 r) = logit (row x0 r) x2 x3 x4 x5 := by
  have hi : ∀ j : Fin 7, idx_main_v9 (ix1 r) j = ix2 r j := fun j =>
    funext fun a => Fin.ext (by match a with | ⟨0, _⟩ => rfl | ⟨1, _⟩ => rfl)
  rw [val_main_v11_apply, val_main_v9_apply, val_main_v10_apply, val_main_cst_0_apply, val_main_cst_apply]
  simp only [hi, output1]
  unfold logit
  show Ideal.div (Ideal.ofBits .f32 0x00000000#32 + _) _ = _
  rw [Ideal.ofBits_zero_f32, zero_add]
  rfl

/-- The second expert's rectified first layer at (r, k): row r's hidden unit k. -/
theorem hidden2 (r : Fin 16384) (k : Fin 7) : val_main_v16 (F := Ideal) x1 x2 x3 (ix2 r k) = hidden (row x1 r) x2 x3 k := by
  have hl : ∀ d : Fin 4096, lidx_main_v12 (ix2 r k) d = ix2 r d := fun d =>
    funext fun a => Fin.ext (by match a with | ⟨0, _⟩ => rfl | ⟨1, _⟩ => rfl)
  have hr : ∀ d : Fin 4096, ridx_main_v12 (ix2 r k) d = ix2 d k := fun d =>
    funext fun a => Fin.ext (by match a with | ⟨0, _⟩ => rfl | ⟨1, _⟩ => rfl)
  have hb : idx_main_v13 (idx_main_v14 (ix2 r k)) = ix1 k :=
    funext fun a => Fin.ext (by match a with | ⟨0, _⟩ => rfl)
  rw [val_main_v16_apply, val_main_v15_apply, val_main_v12_apply, val_main_v14_apply, val_main_v13_apply,
    val_main_call1_v0_apply, val_main_call1_cst_apply, hb]
  simp only [hl, hr]
  rfl

/-- The second expert's second layer at (r, j): row r's output j. -/
theorem output2 (r : Fin 16384) (j : Fin 7) :
    val_main_v20 (F := Ideal) x1 x2 x3 x4 x5 (ix2 r j) = output (row x1 r) x2 x3 x4 x5 j := by
  have hl : ∀ k : Fin 7, lidx_main_v17 (ix2 r j) k = ix2 r k := fun k =>
    funext fun a => Fin.ext (by match a with | ⟨0, _⟩ => rfl | ⟨1, _⟩ => rfl)
  have hr : ∀ k : Fin 7, ridx_main_v17 (ix2 r j) k = ix2 k j := fun k =>
    funext fun a => Fin.ext (by match a with | ⟨0, _⟩ => rfl | ⟨1, _⟩ => rfl)
  have hb : idx_main_v18 (idx_main_v19 (ix2 r j)) = ix1 j :=
    funext fun a => Fin.ext (by match a with | ⟨0, _⟩ => rfl)
  rw [val_main_v20_apply, val_main_v17_apply, val_main_v19_apply, val_main_v18_apply, hb]
  simp only [hl, hr, hidden2]
  rfl

/-- The second expert's logit at row r: the sum from zero of the seven outputs, over seven. -/
theorem logit2 (r : Fin 16384) : val_main_v23 (F := Ideal) x1 x2 x3 x4 x5 (ix1 r) = logit (row x1 r) x2 x3 x4 x5 := by
  have hi : ∀ j : Fin 7, idx_main_v21 (ix1 r) j = ix2 r j := fun j =>
    funext fun a => Fin.ext (by match a with | ⟨0, _⟩ => rfl | ⟨1, _⟩ => rfl)
  rw [val_main_v23_apply, val_main_v21_apply, val_main_v22_apply, val_main_cst_2_apply, val_main_cst_1_apply]
  simp only [hi, output2]
  unfold logit
  show Ideal.div (Ideal.ofBits .f32 0x00000000#32 + _) _ = _
  rw [Ideal.ofBits_zero_f32, zero_add]
  rfl

/-- The stacked logits at (r, 0): the first expert's logit of row r. -/
theorem stack_left (r : Fin 16384) :
    val_main_v26 (F := Ideal) x0 x1 x2 x3 x4 x5 (ix2 r (0 : Fin 2)) = logit (row x0 r) x2 x3 x4 x5 := by
  unfold val_main_v26
  refine (concatenate_pair_apply_left (1 : Fin S16384x2.rank) _ _ concatenates_S16384x1_S16384x1_S16384x2_d1 (ix2 r (0 : Fin 2)) rfl
    (ix2 r (0 : Fin 1)) (fun b => by match b with | ⟨0, _⟩ => rfl | ⟨1, _⟩ => rfl)).trans ?_
  rw [val_main_v24_apply]
  exact (congrArg (val_main_v11 (F := Ideal) x0 x2 x3 x4 x5) (funext fun a => Fin.ext (by match a with | ⟨0, _⟩ => rfl))).trans
    (logit1 x0 x2 x3 x4 x5 r)

/-- The stacked logits at (r, 1): the second expert's logit of row r. -/
theorem stack_right (r : Fin 16384) :
    val_main_v26 (F := Ideal) x0 x1 x2 x3 x4 x5 (ix2 r (1 : Fin 2)) = logit (row x1 r) x2 x3 x4 x5 := by
  unfold val_main_v26
  refine (concatenate_pair_apply_right (1 : Fin S16384x2.rank) _ _ concatenates_S16384x1_S16384x1_S16384x2_d1 (ix2 r (1 : Fin 2)) rfl rfl
    (ix2 r (0 : Fin 1)) (fun b hb => by match b with | ⟨0, _⟩ => rfl | ⟨1, _⟩ => exact absurd rfl hb) rfl).trans ?_
  rw [val_main_v25_apply]
  exact (congrArg (val_main_v23 (F := Ideal) x1 x2 x3 x4 x5) (funext fun a => Fin.ext (by match a with | ⟨0, _⟩ => rfl))).trans
    (logit2 x1 x2 x3 x4 x5 r)

/-- A fold of max over two entries. -/
theorem fold_max_two (b : EReal) (f : Fin 2 → EReal) : (Finset.univ : Finset (Fin 2)).fold max b f = max (f 0) (max (f 1) b) := by
  rw [show (Finset.univ : Finset (Fin 2)) = {0, 1} from by decide, Finset.fold_insert (by decide), Finset.fold_singleton]

/-- The row maximum of the stacked logits at row r: the larger of the two logits. -/
theorem rowmax (r : Fin 16384) :
    val_main_v29 (F := Ideal) x0 x1 x2 x3 x4 x5 (ix1 r)
      = max (logit (row x0 r) x2 x3 x4 x5) (logit (row x1 r) x2 x3 x4 x5) := by
  have hfold : val_main_v27 (F := Ideal) x0 x1 x2 x3 x4 x5 (ix1 r)
      = max (logit (row x0 r) x2 x3 x4 x5) (max (logit (row x1 r) x2 x3 x4 x5) (Ideal.ofBits .f32 0xFF800000#32)) := by
    unfold val_main_v27
    refine (Host.reduce_eq_fold_single FloatOps.maximumf _ _ reducesTo_S16384x2_S16384_d1 (by decide) h_S_ (ix1 r)).trans ?_
    refine (fold_max_two _ _).trans ?_
    refine congrArg₂ max ?_ (congrArg₂ max ?_ rfl)
    · exact (congrArg (val_main_v26 (F := Ideal) x0 x1 x2 x3 x4 x5)
        (funext fun a => Fin.ext (by match a with | ⟨0, _⟩ => rfl | ⟨1, _⟩ => rfl))).trans (stack_left x0 x1 x2 x3 x4 x5 r)
    · exact (congrArg (val_main_v26 (F := Ideal) x0 x1 x2 x3 x4 x5)
        (funext fun a => Fin.ext (by match a with | ⟨0, _⟩ => rfl | ⟨1, _⟩ => rfl))).trans (stack_right x0 x1 x2 x3 x4 x5 r)
  rw [val_main_v29_apply, hfold, val_main_v28_apply, val_main_cst_4_apply]
  show max (Ideal.ofBits .f32 0xFF800000#32) _ = _
  rw [max_negInf, max_comm (logit (row x1 r) x2 x3 x4 x5), max_negInf]

/-- The shifted exponential of the stacked logits at (r, c). -/
theorem expo (r : Fin 16384) (c : Fin 2) :
    val_main_v33 (F := Ideal) x0 x1 x2 x3 x4 x5 (ix2 r c)
      = Ideal.exp (val_main_v26 (F := Ideal) x0 x1 x2 x3 x4 x5 (ix2 r c) - max (logit (row x0 r) x2 x3 x4 x5) (logit (row x1 r) x2 x3 x4 x5)) := by
  have hi : idx_main_v30 (idx_main_v31 (ix2 r c)) = ix1 r := funext fun a => Fin.ext (by match a with | ⟨0, _⟩ => rfl)
  rw [val_main_v33_apply, val_main_v32_apply, val_main_v31_apply, val_main_v30_apply, hi, rowmax]
  rfl

/-- The softmax denominator at row r: the sum, from zero, of the row's two shifted exponentials. -/
theorem denom (r : Fin 16384) :
    val_main_v34 (F := Ideal) x0 x1 x2 x3 x4 x5 (ix1 r)
      = Ideal.exp ((logit (row x0 r) x2 x3 x4 x5) - max (logit (row x0 r) x2 x3 x4 x5) (logit (row x1 r) x2 x3 x4 x5)) + Ideal.exp ((logit (row x1 r) x2 x3 x4 x5) - max (logit (row x0 r) x2 x3 x4 x5) (logit (row x1 r) x2 x3 x4 x5)) := by
  have hi : ∀ k : Fin 2, idx_main_v34 (ix1 r) k = ix2 r k := fun k =>
    funext fun a => Fin.ext (by match a with | ⟨0, _⟩ => rfl | ⟨1, _⟩ => rfl)
  rw [val_main_v34_apply, val_main_cst_5_apply]
  simp only [hi]
  rw [Fin.sum_univ_two, expo, expo, stack_left, stack_right]
  show Ideal.ofBits .f32 0x00000000#32 + _ = _
  rw [Ideal.ofBits_zero_f32, zero_add]

/-- The softmax weight at (r, c): the shifted exponential over the row's denominator. -/
theorem soft (r : Fin 16384) (c : Fin 2) :
    val_main_v37 (F := Ideal) x0 x1 x2 x3 x4 x5 (ix2 r c)
      = Ideal.div (Ideal.exp (val_main_v26 (F := Ideal) x0 x1 x2 x3 x4 x5 (ix2 r c) - max (logit (row x0 r) x2 x3 x4 x5) (logit (row x1 r) x2 x3 x4 x5)))
          (Ideal.exp ((logit (row x0 r) x2 x3 x4 x5) - max (logit (row x0 r) x2 x3 x4 x5) (logit (row x1 r) x2 x3 x4 x5)) + Ideal.exp ((logit (row x1 r) x2 x3 x4 x5) - max (logit (row x0 r) x2 x3 x4 x5) (logit (row x1 r) x2 x3 x4 x5))) := by
  have hi : idx_main_v35 (idx_main_v36 (ix2 r c)) = ix1 r := funext fun a => Fin.ext (by match a with | ⟨0, _⟩ => rfl)
  rw [val_main_v37_apply, val_main_v36_apply, val_main_v35_apply, hi, expo, denom]
  rfl

/-- The reference's result is the gated mixture of its argument arrays. -/
theorem result_eq : val_main_v44 (F := Ideal) x0 x1 x2 x3 x4 x5 = gated (R := 16384) x0 x1 x2 x3 x4 x5 := by
  funext i
  obtain ⟨r, q, rfl⟩ : ∃ (r : Fin 16384) (q : Fin 4096), i = ix2 r q := ⟨i 0, i 1, eq_ix2 i⟩
  have h0 : idx_main_v38 (idx_main_v39 (ix2 r q)) = ix2 r (0 : Fin 2) :=
    funext fun a => Fin.ext (by match a with | ⟨0, _⟩ => rfl | ⟨1, _⟩ => rfl)
  have h1 : idx_main_v41 (idx_main_v42 (ix2 r q)) = ix2 r (1 : Fin 2) :=
    funext fun a => Fin.ext (by match a with | ⟨0, _⟩ => rfl | ⟨1, _⟩ => rfl)
  rw [val_main_v44_apply, val_main_v40_apply, val_main_v43_apply, val_main_v39_apply, val_main_v38_apply, val_main_v42_apply,
    val_main_v41_apply, h0, h1, soft, soft, stack_left, stack_right]
  rfl

end Cert.ReferenceIdeal.GateValue

end
-- ==== Proof.lean ====
/-
  A gated mixture of two experts: the kernel and its jnp reference compute one function over the extended reals.

  Both programs send each row of two [16384, 4096] feature arrays through the same small perceptron (4096 → 7 → 7,
  rectified, the seven outputs averaged) to get two logits per row, take the two-way softmax of the logits after
  subtracting their maximum, and mix the two feature rows with the two weights. The kernel does it on blocks of 512 rows,
  with matrix products into a zero accumulator, a lane sum, and the softmax written out for two columns; the reference does
  it on the whole arrays, with host matrix products, a sum from zero, the two logit columns stacked, a row maximum folded
  from -∞ and a sum from zero over the two stacked columns. At the ideal values a matrix product is the sum over its
  contraction coordinate on either side, a sum from zero is the sum, the fold of max from -∞ over two entries is their
  maximum; nothing else differs, so the two results are equal entry by entry — with no appeal to the inputs' finiteness.

  Proof/GateSpec.lean states the function; Proof/GateKernel.lean reads the kernel's body at an entry of a block;
  Proof/GateBlocks.lean goes from the 32 row blocks to the whole result array; Proof/GateReference.lean reads the
  reference's operations at an entry. The three frames are the generated ones (the reference's from its generated run); the
  idealization rewrote nothing, so its conjunct is trivial.
-/
import proofs.«103838_j57062935494767_1_alg».proof.Defs
import proofs.«103838_j57062935494767_1_alg».proof.Proof.Gen.Kernel
import proofs.«103838_j57062935494767_1_alg».proof.Proof.Gen.Kernel.Skeleton
import proofs.«103838_j57062935494767_1_alg».proof.Proof.Gen.Kernel.Launch
import proofs.«103838_j57062935494767_1_alg».proof.Proof.Gen.Kernel.Points
import proofs.«103838_j57062935494767_1_alg».proof.Proof.Gen.Kernel.Frame
import proofs.«103838_j57062935494767_1_alg».proof.Proof.Gen.KernelIdeal
import proofs.«103838_j57062935494767_1_alg».proof.Proof.Gen.KernelIdeal.Skeleton
import proofs.«103838_j57062935494767_1_alg».proof.Proof.Gen.KernelIdeal.Launch
import proofs.«103838_j57062935494767_1_alg».proof.Proof.Gen.KernelIdeal.Points
import proofs.«103838_j57062935494767_1_alg».proof.Proof.Gen.KernelIdeal.Frame
import proofs.«103838_j57062935494767_1_alg».proof.Proof.Gen.ReferenceIdeal
import proofs.«103838_j57062935494767_1_alg».proof.Proof.Gen.Pre_finite_inputs
import proofs.«103838_j57062935494767_1_alg».proof.Proof.Gen.ReferenceIdeal.Run
import proofs.«103838_j57062935494767_1_alg».proof.Proof.Gen.ReferenceIdeal.Read
import proofs.«103838_j57062935494767_1_alg».proof.Proof.GateBlocks
import proofs.«103838_j57062935494767_1_alg».proof.Proof.GateReference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's both end at the gated
    mixture of the arguments. -/
theorem algebraic : Cert.algebraic_KernelIdeal_ReferenceIdeal := by
  intro m ρ m' ρ' _ hagree
  refine ⟨fun c => Cert.KernelIdeal.GateRun.result m c, Cert.KernelIdeal.GateRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.GateValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
